-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x64 : Shape := ⟨2, ![11008, 64]⟩
abbrev S4096 : Shape := ⟨1, ![4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg5 : FVec F S11008 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S11008 .f32 := Host.absf main_arg5
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4x2048x4096 .f32) (main_arg1 : IVec S11008x2048 32) (main_arg2 : FVec F S11008x64 .f32) (main_arg3 : FVec F S11008x64 .f32) (main_arg4 : FVec F S4096 .f32) (main_arg5 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x64 .f32 := Host.absf main_arg2
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S11008x64 .f32 := Host.absf main_arg3
  let main_cst_2 : FVec F S_ .f32 := constant S_ .f32 0x7F800000#32
  let main_v10 : FVec F S11008x64 .f32 := broadcastInDim S11008x64 ![] bcast_S_S11008x64 main_cst_2
  let main_v11 : IVec S11008x64 1 := cmpf .olt main_v9 main_v10
  let main_c_3 : IVec S_ 1 := constantI S_ 1 1#1
  let main_v12 : IVec S_ 1 := (fun x v => Host.reduce IntOp.andi x v reducesTo_S11008x64_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4x2048x4096 : Shape := ⟨3, ![4, 2048, 4096]⟩
abbrev S11008x2048 : Shape := ⟨2, ![11008, 2048]⟩
abbrev S11008x64 : Shape := ⟨2, ![11008, 64]⟩
abbrev S4096 : Shape := ⟨1, ![4096]⟩
abbrev S11008 : Shape := ⟨1, ![11008]⟩
abbrev S8192x4096 : Shape := ⟨2, ![8192, 4096]⟩
abbrev S1x4096 : Shape := ⟨2, ![1, 4096]⟩
abbrev S1x11008 : Shape := ⟨2, ![1, 11008]⟩
abbrev S8192x11008 : Shape := ⟨2, ![8192, 11008]⟩
abbrev S256x4096 : Shape := ⟨2, ![256, 4096]⟩
abbrev S256x2048 : Shape := ⟨2, ![256, 2048]⟩
abbrev S256x64 : Shape := ⟨2, ![256, 64]⟩
abbrev S1x256 : Shape := ⟨2, ![1, 256]⟩
abbrev S256x256 : Shape := ⟨2, ![256, 256]⟩
abbrev S256x2048x1 : Shape := ⟨3, ![256, 2048, 1]⟩
abbrev S256x2048x2 : Shape := ⟨3, ![256, 2048, 2]⟩
abbrev S256x64x64 : Shape := ⟨3, ![256, 64, 64]⟩
abbrev S256x64x1 : Shape := ⟨3, ![256, 64, 1]⟩
abbrev S4096x256 : Shape := ⟨2, ![4096, 256]⟩
abbrev S4x2048x11008 : Shape := ⟨3, ![4, 2048, 11008]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x64, .f32⟩
  | .hbm, ⟨3, _⟩ => ⟨S11008x64, .f32⟩
  | .hbm, ⟨4, _⟩ => ⟨S4096, .f32⟩
  | .hbm, ⟨5, _⟩ => ⟨S11008, .f32⟩
  | .hbm, ⟨6, _⟩ => ⟨S8192x4096, .f32⟩
  | .hbm, ⟨7, _⟩ => ⟨S1x4096, .f32⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x2048, .i32⟩
  | .local _ .vmem, ⟨3, _⟩ => ⟨S256x2048, .i32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S1x4096, .f32⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S4096_S1x4096 : S4096.ShapeCasts S1x4096
  shapeCasts_S11008_S1x11008 : S11008.ShapeCasts S1x11008
  inb_S256x2048_S256x2048_0_0 : ∀ a, (![0, 0] : Fin 2 → Nat) a + S256x2048.size a ≤ S256x2048.size a
  h_S256x2048 : 0 < S256x2048.numel
  shapeCasts_S256x2048_S256x2048x1 : S256x2048.ShapeCasts S256x2048x1
  concatenates_S256x2048x1_S256x2048x1_S256x2048x2_d2 : Shape.Concatenates [S256x2048x1, S256x2048x1] S256x2048x2 2
  shapeCasts_S256x2048x2_S256x4096 : S256x2048x2.ShapeCasts S256x4096
  shapeCasts_S256x4096_S256x64x64 : S256x4096.ShapeCasts S256x64x64
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x11008_S4x2048x11008 : S8192x11008.ShapeCasts S4x2048x11008
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x2048.size a
  hwx0_1 : ∀ i : grid0.Coords, EltTy.bits .i32 = 32 ∨ (Rect.block (s := S11008x2048) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S11008x64.size a
  hwx0_2 : ∀ i : grid0.Coords, EltTy.bits .f32 = 32 ∨ (Rect.block (s := S11008x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S11008x64.size a
  hwx0_3 : ∀ i : grid0.Coords, EltTy.bits .f32 = 32 ∨ (Rect.block (s := S11008x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x11008.size a
  hwx0_6 : ∀ i : grid0.Coords, EltTy.bits .f32 = 32 ∨ (Rect.block (s := S8192x11008) S256x256.size (cc0_transform_6 i) (hinb0_6 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x64 : Shape := ⟨2, ![11008, 64]⟩
abbrev S4096 : Shape := ⟨1, ![4096]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x64x64 : Shape := ⟨3, ![11008, 64, 64]⟩
abbrev S11008x64x1 : Shape := ⟨3, ![11008, 64, 1]⟩
abbrev S1x4096 : Shape := ⟨2, ![1, 4096]⟩
abbrev S4x2048x11008 : Shape := ⟨3, ![4, 2048, 11008]⟩
abbrev S1x1x11008 : Shape := ⟨3, ![1, 1, 11008]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x64, .f32⟩
  | .hbm, ⟨3, _⟩ => ⟨S11008x64, .f32⟩
  | .hbm, ⟨4, _⟩ => ⟨S4096, .f32⟩
  | .hbm, ⟨5, _⟩ => ⟨S11008, .f32⟩
  | .hbm, ⟨6, _⟩ => ⟨S_, .i32⟩
  | .hbm, ⟨7, _⟩ => ⟨S11008x2048, .i32⟩
  | .hbm, ⟨8, _⟩ => ⟨S11008x2048, .i32⟩
  | .hbm, ⟨9, _⟩ => ⟨S11008x2048, .f32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S11008x2048, .f32⟩
  | .hbm, ⟨14, _⟩ => ⟨S11008x2048x1, .f32⟩
  | .hbm, ⟨15, _⟩ => ⟨S11008x2048x1, .f32⟩
  | .hbm, ⟨16, _⟩ => ⟨S11008x2048x2, .f32⟩
  | .hbm, ⟨17, _⟩ => ⟨S11008x4096, .f32⟩
  | .hbm, ⟨18, _⟩ => ⟨S11008x64x64, .f32⟩
  | .hbm, ⟨19, _⟩ => ⟨S11008x64x1, .f32⟩
  | .hbm, ⟨20, _⟩ => ⟨S11008x64x64, .f32⟩
  | .hbm, ⟨21, _⟩ => ⟨S11008x64x64, .f32⟩
  | .hbm, ⟨22, _⟩ => ⟨S11008x64x1, .f32⟩
  | .hbm, ⟨23, _⟩ => ⟨S11008x64x64, .f32⟩
  | .hbm, ⟨24, _⟩ => ⟨S11008x64x64, .f32⟩
  | .hbm, ⟨25, _⟩ => ⟨S11008x4096, .f32⟩
  | .hbm, ⟨26, _⟩ => ⟨S1x4096, .f32⟩
  | .hbm, ⟨27, _⟩ => ⟨S11008x4096, .f32⟩
  | .hbm, ⟨28, _⟩ => ⟨S11008x4096, .f32⟩
  | .hbm, ⟨29, _⟩ => ⟨S4x2048x11008, .f32⟩
  | .hbm, ⟨30, _⟩ => ⟨S1x1x11008, .f32⟩
  | .hbm, ⟨31, _⟩ => ⟨S4x2048x11008, .f32⟩
  | .hbm, ⟨32, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x64x64 : S11008x4096.ShapeCasts S11008x64x64
  bcast_S11008x64_S11008x64x1_0_1 : S11008x64.BroadcastsInDim S11008x64x1 (![0, 1] : Fin 2 → Fin S11008x64x1.rank)
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  bcast_S4096_S1x4096_1 : S4096.BroadcastsInDim S1x4096 (![1] : Fin 1 → Fin S1x4096.rank)
  bcast_S1x4096_S11008x4096_0_1 : S1x4096.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, index by index, on the extended reals.

  A row of packed weights holds 2048 words; word j carries two 4-bit codes, the code of column 2j in its low
  four bits and the code of column 2j+1 above them. Both programs read them the same way: the even column's code
  is the word masked with 15, the odd column's the word shifted right arithmetically by 4, each converted to a
  float. The 4096 columns of a row fall into 64 groups of 64; group g of output row o has a scale s[o,g] and a
  zero point z[o,g], and every column k has its own scale cs[k]:

      w[o,k]     = (s[o, k/64] · code[o,k] + z[o, k/64]) · cs[k]
      out[b,t,o] = (Σ_k x[b,t,k] · w[o,k]) + bias[o].

  Multiplications and additions are written in the order both programs perform them, so that no law of the
  extended reals beyond reading the same term is ever needed: in particular nothing here asks the inputs to be
  finite.
-/
import Idealize.ShloMosaic.PureOps.Ideal
import Idealize.ShloMosaic.Lib.ValueIdx

noncomputable section

namespace Cert.Awq

open Idealize.ShloMosaic Idealize.ShloMosaic.ValueIdx

/-- The code of column `k` of a packed row: the low nibble of word `k / 2` for an even column, the word shifted
    right by four for an odd one, as a float. -/
def code (row : Fin 2048 → BitVec 32) (k : Fin 4096) : EReal :=
  if k.val % 2 = 0 then
    (FloatOps.sitofp (F := Ideal) .f32 (IntOp.andi (row ⟨k.val / 2, by have := k.isLt; omega⟩) 15#32) : Ideal .f32)
  else
    (FloatOps.sitofp (F := Ideal) .f32 (IntOp.shrsi .vector (row ⟨k.val / 2, by have := k.isLt; omega⟩) 4#32) : Ideal .f32)

/-- The dequantized weight of column `k` of a row: its code scaled and shifted by the row's group `k / 64`, then
    scaled by the column. -/
def weight (row : Fin 2048 → BitVec 32) (s z : Fin 64 → EReal) (cs : Fin 4096 → EReal) (k : Fin 4096) : EReal :=
  (s ⟨k.val / 64, by have := k.isLt; omega⟩ * code row k + z ⟨k.val / 64, by have := k.isLt; omega⟩) * cs k

/-- One output element: a row of activations against a row of dequantized weights, plus the row's bias. -/
def dotRow (xrow : Fin 4096 → EReal) (row : Fin 2048 → BitVec 32) (s z : Fin 64 → EReal) (cs : Fin 4096 → EReal)
    (bias : EReal) : EReal :=
  (∑ k : Fin 4096, xrow k * weight row s z cs k) + bias

/-- The result at batch `b`, position `t`, output feature `o`, from the six argument arrays. -/
def outAt (x : (⟨3, ![4, 2048, 4096]⟩ : Shape).Idx → EReal) (wq : (⟨2, ![11008, 2048]⟩ : Shape).Idx → BitVec 32)
    (s z : (⟨2, ![11008, 64]⟩ : Shape).Idx → EReal) (cs : (⟨1, ![4096]⟩ : Shape).Idx → EReal)
    (bias : (⟨1, ![11008]⟩ : Shape).Idx → EReal) (b : Fin 4) (t : Fin 2048) (o : Fin 11008) : EReal :=
  dotRow (fun k => x (ix3 b t k)) (fun j => wq (ix2 o j)) (fun g => s (ix2 o g)) (fun g => z (ix2 o g))
    (fun k => cs (ix1 k)) (bias (ix1 o))

/-- The whole result array. -/
def G (x : (⟨3, ![4, 2048, 4096]⟩ : Shape).Idx → EReal) (wq : (⟨2, ![11008, 2048]⟩ : Shape).Idx → BitVec 32)
    (s z : (⟨2, ![11008, 64]⟩ : Shape).Idx → EReal) (cs : (⟨1, ![4096]⟩ : Shape).Idx → EReal)
    (bias : (⟨1, ![11008]⟩ : Shape).Idx → EReal) : (⟨3, ![4, 2048, 11008]⟩ : Shape).Idx → EReal :=
  fun i => outAt x wq s z cs bias (i 0) (i 1) (i 2)

theorem G_apply (x : (⟨3, ![4, 2048, 4096]⟩ : Shape).Idx → EReal) (wq : (⟨2, ![11008, 2048]⟩ : Shape).Idx → BitVec 32)
    (s z : (⟨2, ![11008, 64]⟩ : Shape).Idx → EReal) (cs : (⟨1, ![4096]⟩ : Shape).Idx → EReal)
    (bias : (⟨1, ![11008]⟩ : Shape).Idx → EReal) (b : Fin 4) (t : Fin 2048) (o : Fin 11008) :
    G x wq s z cs bias (ix3 b t o) = outAt x wq s z cs bias b t o := rfl

end Cert.Awq

end
-- ==== Proof.Layout.lean ====
/-
  Reading the layout operations of the dequantization at an index, for a block of any number `R` of rows:
  the [R, 64, 64] ↔ [R, 4096] and [R, 2048, 2] → [R, 4096] reshapes by row-major position, a trailing unit axis
  added by a reshape, a group's value broadcast along its 64 lanes, and the two-piece concatenation along the
  last axis that interleaves the even and the odd columns.
-/
import Idealize.ShloMosaic.Lib.Pipeline.Value
import Idealize.ShloMosaic.Lib.ValueIdx
import Idealize.ShloMosaic.Lib.ValueLayout

namespace Cert.Awq.Layout

open Idealize.ShloMosaic Idealize.ShloMosaic.ValueIdx

variable {α : Type} {R : ℕ}

/-- [R, 64, 64] flattened to [R, 4096]: column `k` is lane `k % 64` of group `k / 64`. -/
theorem flatten_groups_apply (x : (⟨3, ![R, 64, 64]⟩ : Shape).Idx → α)
    (h : (⟨3, ![R, 64, 64]⟩ : Shape).ShapeCasts ⟨2, ![R, 4096]⟩) (r : Fin R) (k : Fin 4096) :
    shapeCast ⟨2, ![R, 4096]⟩ x h (ix2 r k)
      = x (ix3 r ⟨k.val / 64, by have := k.isLt; omega⟩ ⟨k.val % 64, Nat.mod_lt _ (by decide)⟩) :=
  shapeCast_apply x h _ _ (by
    rw [Shape.rowMajor_val_three, Shape.rowMajor_val_two]
    show (r.val * 64 + k.val / 64) * 64 + k.val % 64 = r.val * 4096 + k.val
    omega)

/-- [R, 4096] split into [R, 64, 64]: lane `e` of group `g` is column `64 g + e`. -/
theorem split_groups_apply (x : (⟨2, ![R, 4096]⟩ : Shape).Idx → α)
    (h : (⟨2, ![R, 4096]⟩ : Shape).ShapeCasts ⟨3, ![R, 64, 64]⟩) (r : Fin R) (g e : Fin 64) :
    shapeCast ⟨3, ![R, 64, 64]⟩ x h (ix3 r g e)
      = x (ix2 r ⟨g.val * 64 + e.val, by have := g.isLt; have := e.isLt; omega⟩) :=
  shapeCast_apply x h _ _ (by
    rw [Shape.rowMajor_val_two, Shape.rowMajor_val_three]
    show r.val * 4096 + (g.val * 64 + e.val) = (r.val * 64 + g.val) * 64 + e.val
    omega)

/-- [R, 2048, 2] flattened to [R, 4096]: column `k` is entry `k % 2` of pair `k / 2`. -/
theorem flatten_pairs_apply (x : (⟨3, ![R, 2048, 2]⟩ : Shape).Idx → α)
    (h : (⟨3, ![R, 2048, 2]⟩ : Shape).ShapeCasts ⟨2, ![R, 4096]⟩) (r : Fin R) (k : Fin 4096) :
    shapeCast ⟨2, ![R, 4096]⟩ x h (ix2 r k)
      = x (ix3 r ⟨k.val / 2, by have := k.isLt; omega⟩ ⟨k.val % 2, Nat.mod_lt _ (by decide)⟩) :=
  shapeCast_apply x h _ _ (by
    rw [Shape.rowMajor_val_three, Shape.rowMajor_val_two]
    show (r.val * 2048 + k.val / 2) * 2 + k.val % 2 = r.val * 4096 + k.val
    omega)

/-- A trailing unit axis added by a reshape: [R, n] read as [R, n, 1]. -/
theorem add_trailing_unit_apply {n : ℕ} (x : (⟨2, ![R, n]⟩ : Shape).Idx → α)
    (h : (⟨2, ![R, n]⟩ : Shape).ShapeCasts ⟨3, ![R, n, 1]⟩) (r : Fin R) (j : Fin n) (u : Fin 1) :
    shapeCast ⟨3, ![R, n, 1]⟩ x h (ix3 r j u) = x (ix2 r j) :=
  shapeCast_apply x h _ _ (by
    have hu : u.val = 0 := by omega
    rw [Shape.rowMajor_val_two, Shape.rowMajor_val_three]
    show r.val * n + j.val = (r.val * n + j.val) * 1 + u.val
    omega)

/-- A group's value broadcast along its lanes: [R, 64, 1] to [R, 64, 64]. -/
theorem broadcast_lanes_apply (x : (⟨3, ![R, 64, 1]⟩ : Shape).Idx → α)
    (h : (⟨3, ![R, 64, 1]⟩ : Shape).Broadcasts ⟨3, ![R, 64, 64]⟩) (r : Fin R) (g e : Fin 64) :
    broadcastTo ⟨3, ![R, 64, 64]⟩ x h (ix3 r g e) = x (ix3 r g (0 : Fin 1)) := by
  refine broadcastTo_apply x h (ix3 r g e) (ix3 r g (0 : Fin 1)) fun ax => ?_
  match ax with
  | ⟨0, _⟩ =>
    show r.val = if R = 1 then 0 else r.val
    split
    · have := r.isLt; omega
    · rfl
  | ⟨1, _⟩ => rfl
  | ⟨2, _⟩ => rfl

/-- The even and the odd columns interleaved: the concatenation of two [R, 2048, 1] pieces along the last axis
    reads the first piece at entry 0 of a pair and the second at entry 1. -/
theorem interleave_apply (x₁ x₂ : (⟨3, ![R, 2048, 1]⟩ : Shape).Idx → α)
    (h : Shape.Concatenates [(⟨3, ![R, 2048, 1]⟩ : Shape), ⟨3, ![R, 2048, 1]⟩] ⟨3, ![R, 2048, 2]⟩ 2)
    (r : Fin R) (j : Fin 2048) (p : Fin 2) :
    concatenate ⟨3, ![R, 2048, 2]⟩ 2 [⟨⟨3, ![R, 2048, 1]⟩, x₁⟩, ⟨⟨3, ![R, 2048, 1]⟩, x₂⟩] h (ix3 r j p)
      = if p.val = 0 then x₁ (ix3 r j (0 : Fin 1)) else x₂ (ix3 r j (0 : Fin 1)) := by
  by_cases hp : p.val = 0
  · rw [if_pos hp]
    refine concatenate_pair_apply_left (2 : Fin 3) x₁ x₂ h (ix3 r j p) rfl (ix3 r j (0 : Fin 1)) fun b => ?_
    match b with
    | ⟨0, _⟩ => rfl
    | ⟨1, _⟩ => rfl
    | ⟨2, _⟩ => exact hp.symm
  · rw [if_neg hp]
    have hp1 : p.val = 1 := by have := p.isLt; omega
    refine concatenate_pair_apply_right (2 : Fin 3) x₁ x₂ h (ix3 r j p) rfl rfl (ix3 r j (0 : Fin 1)) (fun b hb => ?_) ?_
    · match b with
      | ⟨0, _⟩ => rfl
      | ⟨1, _⟩ => rfl
      | ⟨2, _⟩ => exact absurd rfl hb
    · show 0 + 1 = p.val
      omega

end Cert.Awq.Layout
-- ==== Proof.KernelPayload.lean ====
/-
  What one grid point's body computes, read at an index of its 256 × 256 output block.

  The body unpacks the block's 256 rows of packed weights into codes (the even and the odd columns joined along a
  new last axis and flattened), applies each group's scale and zero point and each column's scale, and multiplies
  the block of 256 activation rows with the transpose of the dequantized 256 × 4096 weight block on the matrix
  unit, from a zero accumulator, before adding the bias row. A change of float format is the identity on the
  extended reals, so element (p, q) of the result is the specification's row product of activation row `p` with
  weight row `q`, plus the bias at `q`.
-/
import proofs.«414333_j64965675319552_1_alg».proof.Proof.Gen.KernelIdeal.Skeleton
import proofs.«414333_j64965675319552_1_alg».proof.Proof.Spec
import proofs.«414333_j64965675319552_1_alg».proof.Proof.Layout
import Idealize.ShloMosaic.PureOps.Ideal.Laws
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx

/-- The block's codes as the body lays them out: [256, 2048] twice, joined to [256, 2048, 2], flattened to [256, 4096]. -/
def codes (v0 : Vec Ideal S256x2048 .i32) : FVec Ideal S256x4096 .f32 :=
  shapeCast S256x4096
    (concatenate S256x2048x2 2
      [⟨S256x2048x1, shapeCast S256x2048x1 (sitofp .f32 (andi v0 (broadcast S256x2048 15#32)) : FVec Ideal S256x2048 .f32) shapeCasts_S256x2048_S256x2048x1⟩,
       ⟨S256x2048x1, shapeCast S256x2048x1 (sitofp .f32 (shrsi v0 (broadcast S256x2048 4#32)) : FVec Ideal S256x2048 .f32) shapeCasts_S256x2048_S256x2048x1⟩]
      concatenates_S256x2048x1_S256x2048x1_S256x2048x2_d2)
    shapeCasts_S256x2048x2_S256x4096

/-- The block's dequantized weights as the body computes them. -/
def wts (v0 : Vec Ideal S256x2048 .i32) (v12 v14 : Vec Ideal S256x64 .f32) (v21 : Vec Ideal S1x4096 .f32) : FVec Ideal S256x4096 .f32 :=
  mulf
    (shapeCast S256x4096
      (addf
        (mulf (broadcastTo S256x64x64 (shapeCast S256x64x1 v12 shapeCasts_S256x64_S256x64x1) broadcasts_S256x64x1_S256x64x64)
          (shapeCast S256x64x64 (codes v0) shapeCasts_S256x4096_S256x64x64))
        (broadcastTo S256x64x64 (shapeCast S256x64x1 v14 shapeCasts_S256x64_S256x64x1) broadcasts_S256x64x1_S256x64x64))
      shapeCasts_S256x64x64_S256x4096)
    (broadcastTo S256x4096 (shapeCast S1x4096 v21 shapeCasts_S1x4096_S1x4096) broadcasts_S1x4096_S256x4096)

/-- The body's one stored value, over those two. -/
theorem pay_eq (v0 : Vec Ideal S256x2048 .i32) (v12 v14 : Vec Ideal S256x64 .f32) (v21 : Vec Ideal S1x4096 .f32)
    (v26 : Vec Ideal S256x4096 .f32) (v31 : Vec Ideal S1x256 .f32) :
    k0_pay1 (F := Ideal) v0 v12 v14 v21 v26 v31
      = addf
          (matmul dot_S256x4096_S4096x256_S256x256_1_0_0_1_n_n none
            (truncf .bf16 (shapeCast S256x4096 v26 shapeCasts_S256x4096_S256x4096) bitsLt_bf16_f32)
            (transpose S4096x256 [1, 0] (truncf .bf16 (wts v0 v12 v14 v21) bitsLt_bf16_f32) transposes_S256x4096_p1_0_S4096x256)
            (constant S256x256 .f32 0x00000000#32))
          (broadcastTo S256x256 (shapeCast S1x256 v31 shapeCasts_S1x256_S1x256) broadcasts_S1x256_S256x256) := rfl

/-- The codes of row `q` of the block. -/
theorem codes_apply (v0 : Vec Ideal S256x2048 .i32) (q : Fin 256) (k : Fin 4096) :
    codes v0 (ix2 q k) = Cert.Awq.code (fun j => v0 (ix2 q j)) k := by
  unfold codes
  refine (Cert.Awq.Layout.flatten_pairs_apply _ _ q k).trans ?_
  refine (Cert.Awq.Layout.interleave_apply _ _ _ q _ _).trans ?_
  unfold Cert.Awq.code
  by_cases hk : k.val % 2 = 0
  · rw [if_pos hk, if_pos hk]
    exact Cert.Awq.Layout.add_trailing_unit_apply _ _ q _ _
  · rw [if_neg hk, if_neg hk]
    exact Cert.Awq.Layout.add_trailing_unit_apply _ _ q _ _

/-- The dequantized weight of row `q` of the block at column `k`. -/
theorem wts_apply (v0 : Vec Ideal S256x2048 .i32) (v12 v14 : Vec Ideal S256x64 .f32) (v21 : Vec Ideal S1x4096 .f32)
    (q : Fin 256) (k : Fin 4096) :
    wts v0 v12 v14 v21 (ix2 q k)
      = Cert.Awq.weight (fun j => v0 (ix2 q j)) (fun g => v12 (ix2 q g)) (fun g => v14 (ix2 q g)) (fun k => v21 (ix2 (0 : Fin 1) k)) k := by
  unfold wts Cert.Awq.weight
  refine (mulf_apply _ _ _).trans (congrArg₂ (· * ·) ?_ ?_)
  · refine (Cert.Awq.Layout.flatten_groups_apply _ _ q k).trans ?_
    refine (addf_apply _ _ _).trans (congrArg₂ (· + ·) ?_ ?_)
    · refine (mulf_apply _ _ _).trans (congrArg₂ (· * ·) ?_ ?_)
      · exact (Cert.Awq.Layout.broadcast_lanes_apply _ _ q _ _).trans (Cert.Awq.Layout.add_trailing_unit_apply _ _ q _ _)
      · refine (Cert.Awq.Layout.split_groups_apply _ _ q _ _).trans ?_
        have ek : (⟨k.val / 64 * 64 + k.val % 64, by have := k.isLt; omega⟩ : Fin 4096) = k := Fin.ext (by show k.val / 64 * 64 + k.val % 64 = k.val; omega)
        exact (congrArg (fun k' => codes v0 (ix2 q k')) ek).trans (codes_apply v0 q k)
    · exact (Cert.Awq.Layout.broadcast_lanes_apply _ _ q _ _).trans (Cert.Awq.Layout.add_trailing_unit_apply _ _ q _ _)
  · exact (broadcastTo_1b_ab_apply _ _ q k).trans (congrFun (shapeCast_self v21 _) _)

/-! The matrix product's operand indices: output index (p, q) and contraction position k read the left operand at
    (p, k) and the right at (k, q). -/

theorem lhs_0 (i : S256x256.Idx) (r : dot_S256x4096_S4096x256_S256x256_1_0_0_1_n_n.contr.Idx) : (dot_S256x4096_S4096x256_S256x256_1_0_0_1_n_n.lhsIdx i r 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_1 (i : S256x256.Idx) (r : dot_S256x4096_S4096x256_S256x256_1_0_0_1_n_n.contr.Idx) : (dot_S256x4096_S4096x256_S256x256_1_0_0_1_n_n.lhsIdx i r 1).val = (r ⟨0, by decide⟩).val :=
  dot_S256x4096_S4096x256_S256x256_1_0_0_1_n_n.lhsIdx_val_of_single rfl i r
theorem rhs_0 (i : S256x256.Idx) (r : dot_S256x4096_S4096x256_S256x256_1_0_0_1_n_n.contr.Idx) : (dot_S256x4096_S4096x256_S256x256_1_0_0_1_n_n.rhsIdx i r 0).val = (r ⟨0, by decide⟩).val :=
  dot_S256x4096_S4096x256_S256x256_1_0_0_1_n_n.rhsIdx_val_of_single rfl i r
theorem rhs_1 (i : S256x256.Idx) (r : dot_S256x4096_S4096x256_S256x256_1_0_0_1_n_n.contr.Idx) : (dot_S256x4096_S4096x256_S256x256_1_0_0_1_n_n.rhsIdx i r 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- Element (p, q) of the block the body stores. -/
theorem pay_apply (v0 : Vec Ideal S256x2048 .i32) (v12 v14 : Vec Ideal S256x64 .f32) (v21 : Vec Ideal S1x4096 .f32)
    (v26 : Vec Ideal S256x4096 .f32) (v31 : Vec Ideal S1x256 .f32) (p q : Fin 256) :
    k0_pay1 (F := Ideal) v0 v12 v14 v21 v26 v31 (ix2 p q)
      = Cert.Awq.dotRow (fun k => v26 (ix2 p k)) (fun j => v0 (ix2 q j)) (fun g => v12 (ix2 q g)) (fun g => v14 (ix2 q g))
          (fun k => v21 (ix2 (0 : Fin 1) k)) (v31 (ix2 (0 : Fin 1) q)) := by
  refine (congrFun (pay_eq v0 v12 v14 v21 v26 v31) (ix2 p q)).trans ?_
  unfold Cert.Awq.dotRow
  refine (addf_apply _ _ _).trans (congrArg₂ (· + ·) ?_ ?_)
  · simp only [matmul]
    refine (Ideal.matmul_constant_zero_apply dot_S256x4096_S4096x256_S256x256_1_0_0_1_n_n none _ _ (ix2 p q)).trans ?_
    rw [← Equiv.sum_comp (contrEquiv1 dot_S256x4096_S4096x256_S256x256_1_0_0_1_n_n 4096 rfl rfl).symm]
    refine Finset.sum_congr rfl fun k _ => ?_
    have hk := contrEquiv1_symm_val dot_S256x4096_S4096x256_S256x256_1_0_0_1_n_n 4096 rfl rfl k
    have el : dot_S256x4096_S4096x256_S256x256_1_0_0_1_n_n.lhsIdx (ix2 p q) ((contrEquiv1 dot_S256x4096_S4096x256_S256x256_1_0_0_1_n_n 4096 rfl rfl).symm k) = ix2 p k := funext fun a => Fin.ext (by
      match a with
      | ⟨0, _⟩ => exact lhs_0 _ _
      | ⟨1, _⟩ => exact (lhs_1 _ _).trans hk)
    have er : dot_S256x4096_S4096x256_S256x256_1_0_0_1_n_n.rhsIdx (ix2 p q) ((contrEquiv1 dot_S256x4096_S4096x256_S256x256_1_0_0_1_n_n 4096 rfl rfl).symm k) = ix2 k q := funext fun a => Fin.ext (by
      match a with
      | ⟨0, _⟩ => exact (rhs_0 _ _).trans hk
      | ⟨1, _⟩ => exact rhs_1 _ _)
    rw [el, er]
    refine congrArg₂ (· * ·) ?_ ?_
    · exact congrFun (shapeCast_self v26 _) _
    · exact (transpose_ix2_apply _ _ k q).trans (wts_apply v0 v12 v14 v21 q k)
  · exact (broadcastTo_1b_ab_apply _ _ p q).trans (congrFun (shapeCast_self v31 _) _)

end Cert.KernelIdeal.Body

end
-- ==== Proof.Spec2.lean ====
/-
  The pallas_call works on the activations flattened to [8192, 4096] and writes an [8192, 11008] array, which the
  program reshapes to [4, 2048, 11008]; the column scale and the bias enter it as one-row matrices. Here is that
  two-dimensional array as a function of the two-dimensional operands, and the fact that, through those reshapes,
  it is the specification's array: row `2048 b + t` of the flattened activations is row (b, t).
-/
import proofs.«414333_j64965675319552_1_alg».proof.Proof.Spec
import Idealize.ShloMosaic.Lib.Pipeline.Value
import Idealize.ShloMosaic.Lib.ValueLayout

noncomputable section

namespace Cert.Awq

open Idealize.ShloMosaic Idealize.ShloMosaic.ValueIdx

/-- Element (M, o) of the pallas_call's output. -/
def out2At (X : (⟨2, ![8192, 4096]⟩ : Shape).Idx → EReal) (W : (⟨2, ![11008, 2048]⟩ : Shape).Idx → BitVec 32)
    (S Z : (⟨2, ![11008, 64]⟩ : Shape).Idx → EReal) (CS : (⟨2, ![1, 4096]⟩ : Shape).Idx → EReal)
    (B : (⟨2, ![1, 11008]⟩ : Shape).Idx → EReal) (M : Fin 8192) (o : Fin 11008) : EReal :=
  dotRow (fun k => X (ix2 M k)) (fun j => W (ix2 o j)) (fun g => S (ix2 o g)) (fun g => Z (ix2 o g))
    (fun k => CS (ix2 (0 : Fin 1) k)) (B (ix2 (0 : Fin 1) o))

/-- The pallas_call's whole output array. -/
def G2 (X : (⟨2, ![8192, 4096]⟩ : Shape).Idx → EReal) (W : (⟨2, ![11008, 2048]⟩ : Shape).Idx → BitVec 32)
    (S Z : (⟨2, ![11008, 64]⟩ : Shape).Idx → EReal) (CS : (⟨2, ![1, 4096]⟩ : Shape).Idx → EReal)
    (B : (⟨2, ![1, 11008]⟩ : Shape).Idx → EReal) : (⟨2, ![8192, 11008]⟩ : Shape).Idx → EReal :=
  fun i => out2At X W S Z CS B (i 0) (i 1)

/-- Two row products over equal rows are equal. -/
theorem dotRow_congr {a a' : Fin 4096 → EReal} {r r' : Fin 2048 → BitVec 32} {s s' z z' : Fin 64 → EReal}
    {c c' : Fin 4096 → EReal} {b b' : EReal} (ha : a = a') (hr : r = r') (hs : s = s') (hz : z = z') (hc : c = c')
    (hb : b = b') : dotRow a r s z c b = dotRow a' r' s' z' c' b' := by
  subst ha hr hs hz hc hb; rfl

/-- Through the program's reshapes the two-dimensional array is the specification's. -/
theorem G2_reshape (x : (⟨3, ![4, 2048, 4096]⟩ : Shape).Idx → EReal) (wq : (⟨2, ![11008, 2048]⟩ : Shape).Idx → BitVec 32)
    (s z : (⟨2, ![11008, 64]⟩ : Shape).Idx → EReal) (cs : (⟨1, ![4096]⟩ : Shape).Idx → EReal)
    (bias : (⟨1, ![11008]⟩ : Shape).Idx → EReal)
    (hx : (⟨3, ![4, 2048, 4096]⟩ : Shape).ShapeCasts ⟨2, ![8192, 4096]⟩)
    (hc : (⟨1, ![4096]⟩ : Shape).ShapeCasts ⟨2, ![1, 4096]⟩)
    (hb : (⟨1, ![11008]⟩ : Shape).ShapeCasts ⟨2, ![1, 11008]⟩)
    (ho : (⟨2, ![8192, 11008]⟩ : Shape).ShapeCasts ⟨3, ![4, 2048, 11008]⟩) :
    shapeCast ⟨3, ![4, 2048, 11008]⟩
        (G2 (shapeCast ⟨2, ![8192, 4096]⟩ x hx) wq s z (shapeCast ⟨2, ![1, 4096]⟩ cs hc) (shapeCast ⟨2, ![1, 11008]⟩ bias hb)) ho
      = G x wq s z cs bias := by
  funext i
  obtain ⟨b, t, o, rfl⟩ : ∃ (b : Fin 4) (t : Fin 2048) (o : Fin 11008), i = ix3 b t o := ⟨i 0, i 1, i 2, eq_ix3 i⟩
  have hM : b.val * 2048 + t.val < 8192 := by have := b.isLt; have := t.isLt; omega
  refine (shapeCast_apply _ ho (ix3 b t o) (ix2 (⟨b.val * 2048 + t.val, hM⟩ : Fin 8192) o) (by
    rw [Shape.rowMajor_val_two, Shape.rowMajor_val_three]
    show (b.val * 2048 + t.val) * 11008 + o.val = (b.val * 2048 + t.val) * 11008 + o.val
    rfl)).trans ?_
  rw [G_apply]
  show out2At _ wq s z _ _ (⟨b.val * 2048 + t.val, hM⟩ : Fin 8192) o = _
  unfold out2At outAt
  refine dotRow_congr (funext fun k => ?_) rfl rfl rfl (funext fun k => ?_) ?_
  · exact shapeCast_apply x hx _ (ix3 b t k) (by
      rw [Shape.rowMajor_val_three, Shape.rowMajor_val_two]
      show (b.val * 2048 + t.val) * 4096 + k.val = (b.val * 2048 + t.val) * 4096 + k.val
      rfl)
  · exact shapeCast_a_1a_apply cs hc 0 k
  · exact shapeCast_a_1a_apply bias hb 0 o

end Cert.Awq

end
-- ==== Proof.KernelValue.lean ====
/-
  The value of the kernel program's result.

  The grid is 32 × 43: point t works on rows 256·(t / 43) … of the flattened activations and on output features
  256·(t % 43) …, reads the whole 4096 columns of both, and writes the 256 × 256 block of the output at those two
  offsets. Each input block is its array read at the block's offsets, so what a point writes back is that block
  of the two-dimensional specification array; the 1376 blocks tile the output, so the output array is that
  function; and the reshapes before and after the pallas_call turn it into the specification's [4, 2048, 11008].
-/
import proofs.«414333_j64965675319552_1_alg».proof.Proof.Gen.KernelIdeal.Frame
import proofs.«414333_j64965675319552_1_alg».proof.Proof.KernelPayload
import proofs.«414333_j64965675319552_1_alg».proof.Proof.Spec2
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays as the region finds them, and each window's block at a point, at their literal types -/

abbrev Xarr (c : Dev nD) : Vec Ideal S8192x4096 .f32 := V m c main_v0
abbrev Warr (c : Dev nD) : Vec Ideal S11008x2048 .i32 := V m c main_arg1
abbrev Sarr (c : Dev nD) : Vec Ideal S11008x64 .f32 := V m c main_arg2
abbrev Zarr (c : Dev nD) : Vec Ideal S11008x64 .f32 := V m c main_arg3
abbrev Carr (c : Dev nD) : Vec Ideal S1x4096 .f32 := V m c main_v1
abbrev Barr (c : Dev nD) : Vec Ideal S1x11008 .f32 := V m c main_v2

abbrev xblk (c : Dev nD) (t : Fin cfg0.N) : Vec Ideal S256x4096 .f32 := iblk m c 0 t
abbrev wblk (c : Dev nD) (t : Fin cfg0.N) : Vec Ideal S256x2048 .i32 := iblk m c 1 t
abbrev sblk (c : Dev nD) (t : Fin cfg0.N) : Vec Ideal S256x64 .f32 := iblk m c 2 t
abbrev zblk (c : Dev nD) (t : Fin cfg0.N) : Vec Ideal S256x64 .f32 := iblk m c 3 t
abbrev cblk (c : Dev nD) (t : Fin cfg0.N) : Vec Ideal S1x4096 .f32 := iblk m c 4 t
abbrev bblk (c : Dev nD) (t : Fin cfg0.N) : Vec Ideal S1x256 .f32 := iblk m c 5 t

theorem hz : (![0, 0] : Fin 2 → Nat) = fun _ => 0 := funext fun a => by fin_cases a <;> rfl

/-- The printed index maps in closed form, decided over the grid: point `t` is at row block `t / 43` and feature
    block `t % 43`. -/
theorem idx_facts : ∀ t : Fin cfg0.N,
    win0_6.index t (0 : Fin 2) = t.val / 43 ∧ win0_6.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 43 :=
  (by decide +kernel : ∀ t : Fin grid0.N, _)

/-! ## Each input block is its array at the block's offsets -/

theorem xblk_apply (c : Dev nD) (t : Fin cfg0.N) (p : Fin 256) (k : Fin 4096) (M : Fin 8192) (hM : M.val = t.val / 43 * 256 + p.val) :
    xblk m c t (ix2 p k) = Xarr m c (ix2 M k) := by
  show Xarr m c (((cfg0.win 0).blk t).view.emb (ix2 p k)) = Xarr m c (ix2 M k)
  refine congrArg (Xarr m c) (funext fun a => Fin.ext ?_)
  obtain ⟨-, -, e0, e1, -⟩ := idx_facts t
  match a with
  | ⟨0, _⟩ => show win0_0.index t (0 : Fin 2) * 256 + 1 * p.val = M.val; omega
  | ⟨1, _⟩ => show win0_0.index t (1 : Fin 2) * 4096 + 1 * k.val = k.val; omega

theorem wblk_apply (c : Dev nD) (t : Fin cfg0.N) (q : Fin 256) (j : Fin 2048) (o : Fin 11008) (ho : o.val = t.val % 43 * 256 + q.val) :
    wblk m c t (ix2 q j) = Warr m c (ix2 o j) := by
  show Warr m c (((cfg0.win 1).blk t).view.emb (ix2 q j)) = Warr m c (ix2 o j)
  refine congrArg (Warr m c) (funext fun a => Fin.ext ?_)
  obtain ⟨-, -, -, -, e0, e1, -⟩ := idx_facts t
  match a with
  | ⟨0, _⟩ => show win0_1.index t (0 : Fin 2) * 256 + 1 * q.val = o.val; omega
  | ⟨1, _⟩ => show win0_1.index t (1 : Fin 2) * 2048 + 1 * j.val = j.val; omega

theorem sblk_apply (c : Dev nD) (t : Fin cfg0.N) (q : Fin 256) (g : Fin 64) (o : Fin 11008) (ho : o.val = t.val % 43 * 256 + q.val) :
    sblk m c t (ix2 q g) = Sarr m c (ix2 o g) := by
  show Sarr m c (((cfg0.win 2).blk t).view.emb (ix2 q g)) = Sarr m c (ix2 o g)
  refine congrArg (Sarr m c) (funext fun a => Fin.ext ?_)
  obtain ⟨-, -, -, -, -, -, e0, e1, -⟩ := idx_facts t
  match a with
  | ⟨0, _⟩ => show win0_2.index t (0 : Fin 2) * 256 + 1 * q.val = o.val; omega
  | ⟨1, _⟩ => show win0_2.index t (1 : Fin 2) * 64 + 1 * g.val = g.val; omega

theorem zblk_apply (c : Dev nD) (t : Fin cfg0.N) (q : Fin 256) (g : Fin 64) (o : Fin 11008) (ho : o.val = t.val % 43 * 256 + q.val) :
    zblk m c t (ix2 q g) = Zarr m c (ix2 o g) := by
  show Zarr m c (((cfg0.win 3).blk t).view.emb (ix2 q g)) = Zarr m c (ix2 o g)
  refine congrArg (Zarr m c) (funext fun a => Fin.ext ?_)
  obtain ⟨-, -, -, -, -, -, -, -, e0, e1, -⟩ := idx_facts t
  match a with
  | ⟨0, _⟩ => show win0_3.index t (0 : Fin 2) * 256 + 1 * q.val = o.val; omega
  | ⟨1, _⟩ => show win0_3.index t (1 : Fin 2) * 64 + 1 * g.val = g.val; omega

theorem cblk_apply (c : Dev nD) (t : Fin cfg0.N) (k : Fin 4096) :
    cblk m c t (ix2 (0 : Fin 1) k) = Carr m c (ix2 (0 : Fin 1) k) := by
  show Carr m c (((cfg0.win 4).blk t).view.emb (ix2 (0 : Fin 1) k)) = Carr m c (ix2 (0 : Fin 1) k)
  refine congrArg (Carr m c) (funext fun a => Fin.ext ?_)
  obtain ⟨-, -, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 4096 + 1 * k.val = k.val; omega

theorem bblk_apply (c : Dev nD) (t : Fin cfg0.N) (q : Fin 256) (o : Fin 11008) (ho : o.val = t.val % 43 * 256 + q.val) :
    bblk m c t (ix2 (0 : Fin 1) q) = Barr m c (ix2 (0 : Fin 1) o) := by
  show Barr m c (((cfg0.win 5).blk t).view.emb (ix2 (0 : Fin 1) q)) = Barr m c (ix2 (0 : Fin 1) o)
  refine congrArg (Barr m c) (funext fun a => Fin.ext ?_)
  obtain ⟨-, -, -, -, -, -, -, -, -, -, -, -, e0, e1⟩ := idx_facts t
  match a with
  | ⟨0, _⟩ => show win0_5.index t (0 : Fin 2) * 1 + 1 * 0 = 0; omega
  | ⟨1, _⟩ => show win0_5.index t (1 : Fin 2) * 256 + 1 * q.val = o.val; omega

/-! ## What a point writes back -/

/-- The body's stored block at `y`, over blocks that are their arrays at offsets (M0, O0), is the specification's
    two-dimensional array at the index `i` that sits at `y` past those offsets. -/
theorem block_eq (X : Vec Ideal S8192x4096 .f32) (W : Vec Ideal S11008x2048 .i32) (S Z : Vec Ideal S11008x64 .f32)
    (CS : Vec Ideal S1x4096 .f32) (B : Vec Ideal S1x11008 .f32)
    (x0 : Vec Ideal S256x4096 .f32) (x1 : Vec Ideal S256x2048 .i32) (x2 x3 : Vec Ideal S256x64 .f32)
    (x4 : Vec Ideal S1x4096 .f32) (x5 : Vec Ideal S1x256 .f32) (M0 O0 : ℕ)
    (h0 : ∀ (p : Fin 256) (k : Fin 4096) (M : Fin 8192), M.val = M0 + p.val → x0 (ix2 p k) = X (ix2 M k))
    (h1 : ∀ (q : Fin 256) (j : Fin 2048) (o : Fin 11008), o.val = O0 + q.val → x1 (ix2 q j) = W (ix2 o j))
    (h2 : ∀ (q : Fin 256) (g : Fin 64) (o : Fin 11008), o.val = O0 + q.val → x2 (ix2 q g) = S (ix2 o g))
    (h3 : ∀ (q : Fin 256) (g : Fin 64) (o : Fin 11008), o.val = O0 + q.val → x3 (ix2 q g) = Z (ix2 o g))
    (h4 : ∀ k : Fin 4096, x4 (ix2 (0 : Fin 1) k) = CS (ix2 (0 : Fin 1) k))
    (h5 : ∀ (q : Fin 256) (o : Fin 11008), o.val = O0 + q.val → x5 (ix2 (0 : Fin 1) q) = B (ix2 (0 : Fin 1) o))
    (y : S256x256.Idx) (i : S8192x11008.Idx) (hi0 : (i 0).val = M0 + (y 0).val) (hi1 : (i 1).val = O0 + (y 1).val) :
    k0_pay1 (F := Ideal) x1 x2 x3 x4 x0 x5 y = Cert.Awq.G2 X W S Z CS B i := by
  obtain ⟨p, q, rfl⟩ : ∃ (p q : Fin 256), y = ix2 p q := ⟨y 0, y 1, eq_ix2 y⟩
  obtain ⟨M, o, rfl⟩ : ∃ (M : Fin 8192) (o : Fin 11008), i = ix2 M o := ⟨i 0, i 1, eq_ix2 i⟩
  refine (Cert.KernelIdeal.Body.pay_apply x1 x2 x3 x4 x0 x5 p q).trans ?_
  show _ = Cert.Awq.out2At X W S Z CS B M o
  unfold Cert.Awq.out2At
  exact Cert.Awq.dotRow_congr (funext fun k => h0 p k M hi0) (funext fun j => h1 q j o hi1) (funext fun g => h2 q g o hi1)
    (funext fun g => h3 q g o hi1) (funext h4) (h5 q o hi1)

/-- WHAT POINT `t` WRITES BACK is block `t` of the two-dimensional specification array of the arrays as the region
    finds them. -/
theorem flushed_eq (c : Dev nD) (t : Fin cfg0.N) :
    (dats m 0 c).flushed 6 t
      = ((cfg0.win 6).blk t).view.read (Elt Ideal) (Cert.Awq.G2 (Xarr m c) (Warr m c) (Sarr m c) (Zarr m c) (Carr m c) (Barr m c)) := by
  show (cfg0.win 6).cut (grid0.coords t) ((dats m 0 c).after 6 t) = _
  rw [after0_6]
  unfold out0_6
  rw [View.canon_unit_zero hz]
  simp only [View.ld_unit_zero (S := S256x4096) hz, View.ld_unit_zero (S := S256x2048) hz, View.ld_unit_zero (S := S256x64) hz,
    View.ld_unit_zero (S := S1x4096) hz, View.ld_unit_zero (S := S1x256) hz]
  funext j
  show k0_pay1 (F := Ideal) (wblk m c t) (sblk m c t) (zblk m c t) (cblk m c t) (xblk m c t) (bblk m c t) j
    = Cert.Awq.G2 (Xarr m c) (Warr m c) (Sarr m c) (Zarr m c) (Carr m c) (Barr m c) (((cfg0.win 6).blk t).view.emb j)
  obtain ⟨e0, e1, -⟩ := idx_facts t
  refine block_eq (Xarr m c) (Warr m c) (Sarr m c) (Zarr m c) (Carr m c) (Barr m c)
    (xblk m c t) (wblk m c t) (sblk m c t) (zblk m c t) (cblk m c t) (bblk m c t) (t.val / 43 * 256) (t.val % 43 * 256)
    (fun p k M hM => xblk_apply m c t p k M hM) (fun q j o ho => wblk_apply m c t q j o ho)
    (fun q g o ho => sblk_apply m c t q g o ho) (fun q g o ho => zblk_apply m c t q g o ho)
    (fun k => cblk_apply m c t k) (fun q o ho => bblk_apply m c t q o ho) j _ ?_ ?_
  · show win0_6.index t (0 : Fin 2) * 256 + 1 * (j 0).val = t.val / 43 * 256 + (j 0).val; omega
  · show win0_6.index t (1 : Fin 2) * 256 + 1 * (j 1).val = t.val % 43 * 256 + (j 1).val; omega

/-! ## The output's blocks tile it -/

theorem mem_blk (t : Fin cfg0.N) (i : S8192x11008.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v3).slice (win0_6.rect t)).set ↔ _
  rw [View.set_slice_whole, Rect.mem_set_unit]
  exact Iff.rfl

/-- Index (M, o) is in the block of the point at row block `M / 256`, feature block `o / 256`. -/
theorem cover (i : S8192x11008.Idx) : ∃ t : Fin cfg0.N, (cfg0.win 6).flush t = true ∧ i ∈ ((cfg0.win 6).blk t).view.set := by
  have hi0 : (i 0).val < 8192 := (i 0).isLt
  have hi1 : (i 1).val < 11008 := (i 1).isLt
  have hN : (i 0).val / 256 * 43 + (i 1).val / 256 < cfg0.N := by
    show _ < grid0.N
    rw [N_0]; omega
  obtain ⟨e0, e1, -⟩ := idx_facts ⟨(i 0).val / 256 * 43 + (i 1).val / 256, hN⟩
  have e0' : win0_6.index ⟨(i 0).val / 256 * 43 + (i 1).val / 256, hN⟩ (0 : Fin 2) = ((i 0).val / 256 * 43 + (i 1).val / 256) / 43 := e0
  have e1' : win0_6.index ⟨(i 0).val / 256 * 43 + (i 1).val / 256, hN⟩ (1 : Fin 2) = ((i 0).val / 256 * 43 + (i 1).val / 256) % 43 := e1
  refine ⟨⟨(i 0).val / 256 * 43 + (i 1).val / 256, hN⟩, flush0_6 _, ?_⟩
  rw [mem_blk]
  intro a
  match a with
  | ⟨0, _⟩ =>
    show win0_6.index ⟨(i 0).val / 256 * 43 + (i 1).val / 256, hN⟩ (0 : Fin 2) * 256 ≤ (i 0).val ∧ (i 0).val < win0_6.index ⟨(i 0).val / 256 * 43 + (i 1).val / 256, hN⟩ (0 : Fin 2) * 256 + 256
    omega
  | ⟨1, _⟩ =>
    show win0_6.index ⟨(i 0).val / 256 * 43 + (i 1).val / 256, hN⟩ (1 : Fin 2) * 256 ≤ (i 1).val ∧ (i 1).val < win0_6.index ⟨(i 0).val / 256 * 43 + (i 1).val / 256, hN⟩ (1 : Fin 2) * 256 + 256
    omega

/-- THE OUTPUT ARRAY after the run. -/
theorem final (c : Dev nD) :
    (dats m 0 c).arrAt 6 cfg0.N = Cert.Awq.G2 (Xarr m c) (Warr m c) (Sarr m c) (Zarr m c) (Carr m c) (Barr m c) :=
  (dats m 0 c).arrAt_eq_of_cover 6 _ (fun t _ => flushed_eq m c t) cover

/-! ## The reshapes before the region -/

theorem Xarr_eq (c : Dev nD) :
    Xarr m c = shapeCast S8192x4096 (m ((c.tc : Thread nD τ).loc main_arg0)) shapeCasts_S4x2048x4096_S8192x4096 := by
  show StableHlo.after hostOps0 (fun b => m (c, b)) (Proc.devRef .tc main_v0) = _
  after_results
  rfl

theorem Carr_eq (c : Dev nD) :
    Carr m c = shapeCast S1x4096 (m ((c.tc : Thread nD τ).loc main_arg4)) shapeCasts_S4096_S1x4096 := by
  show StableHlo.after hostOps0 (fun b => m (c, b)) (Proc.devRef .tc main_v1) = _
  after_results
  rfl

theorem Barr_eq (c : Dev nD) :
    Barr m c = shapeCast S1x11008 (m ((c.tc : Thread nD τ).loc main_arg5)) shapeCasts_S11008_S1x11008 := by
  show StableHlo.after hostOps0 (fun b => m (c, b)) (Proc.devRef .tc main_v2) = _
  after_results
  rfl

/-! ## The reshape after the region, and the result -/

/-- The program's result buffer after the run: the output array reshaped. -/
theorem tail_eq (c : Dev nD) :
    Pipeline.afterTail₀ cfgs (dats m) 0 (V0 m) [hostOps1] c main_v4
      = shapeCast S4x2048x11008 ((dats m 0 c).arrAt 6 cfg0.N) shapeCasts_S8192x11008_S4x2048x11008 := by
  unfold Pipeline.afterTail₀
  show StableHlo.after hostOps1 _ (Proc.devRef .tc main_v4) = _
  after_results
  exact congrArg (fun a => shapeCast S4x2048x11008 a shapeCasts_S8192x11008_S4x2048x11008)
    (Pipeline.withArrays_arr spec0 launch0.win.arr_inj c _ _ 6)

/-- The result is the specification's array of the six arguments as launched. -/
theorem result_eq (c : Dev nD) :
    Pipeline.afterTail₀ cfgs (dats m) 0 (V0 m) [hostOps1] c main_v4
      = Cert.Awq.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [tail_eq, final, Xarr_eq, Carr_eq, Barr_eq]
  have e1 : Warr m c = m ((c.tc : Thread nD τ).loc main_arg1) := V_main_arg1 m c
  have e2 : Sarr m c = m ((c.tc : Thread nD τ).loc main_arg2) := V_main_arg2 m c
  have e3 : Zarr m c = m ((c.tc : Thread nD τ).loc main_arg3) := V_main_arg3 m c
  rw [e1, e2, e3]
  exact Cert.Awq.G2_reshape _ _ _ _ _ _ _ _ _ _

/-- The kernel program's run with its result named: every weakly fair execution terminates with the result buffer
    at the specification's array of the arguments and the arguments unchanged. -/
theorem run : θ_run defs (onTc (τ := τ) (main (F := Ideal))) ⟨m, fun _ => 0, ρ⟩ fun r => ∀ c : Dev nD,
      r.2.mem ((c.tc : Thread nD τ).loc main_v4)
        = Cert.Awq.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefSpec.lean ====
/-
  The reference computes the specification. Its result is read stage by stage: the last addition, the contraction
  of the activations with the dequantized weight over the 4096 columns, the column scale, the group scale and zero
  point, and the codes, which the reference lays out by joining the even and the odd columns along a new last axis
  and flattening. The host's arithmetic shift is the same word as the vector unit's at every amount.
-/
import proofs.«414333_j64965675319552_1_alg».proof.Proof.Gen.ReferenceIdeal.Read
import proofs.«414333_j64965675319552_1_alg».proof.Proof.Spec
import proofs.«414333_j64965675319552_1_alg».proof.Proof.Layout
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx

variable (x0 : (⟨S4x2048x4096, .f32⟩ : BufTy).Contents (Elt Ideal)) (x1 : (⟨S11008x2048, .i32⟩ : BufTy).Contents (Elt Ideal))
  (x2 x3 : (⟨S11008x64, .f32⟩ : BufTy).Contents (Elt Ideal)) (x4 : (⟨S4096, .f32⟩ : BufTy).Contents (Elt Ideal))
  (x5 : (⟨S11008, .f32⟩ : BufTy).Contents (Elt Ideal))

/-- The even columns' codes: the words masked with 15. -/
theorem lo_apply (o : Fin 11008) (j : Fin 2048) (u : Fin 1) :
    val_main_v6 (F := Ideal) x1 (ix3 o j u) = (FloatOps.sitofp (F := Ideal) .f32 (IntOp.andi (x1 (ix2 o j)) 15#32) : Ideal .f32) := by
  have e6 : idx_main_v6 (ix3 o j u) = ix2 o j := funext fun a => Fin.ext (by match a with | ⟨0, _⟩ => rfl | ⟨1, _⟩ => rfl)
  rw [val_main_v6_apply, e6, val_main_v2_apply, val_main_v1_apply, val_main_v0_apply, val_main_c_apply]

/-- The odd columns' codes: the words shifted right by four. -/
theorem hi_apply (o : Fin 11008) (j : Fin 2048) (u : Fin 1) :
    val_main_v7 (F := Ideal) x1 (ix3 o j u)
      = (FloatOps.sitofp (F := Ideal) .f32 (IntOp.shrsi .vector (x1 (ix2 o j)) 4#32) : Ideal .f32) := by
  have e7 : idx_main_v7 (ix3 o j u) = ix2 o j := funext fun a => Fin.ext (by match a with | ⟨0, _⟩ => rfl | ⟨1, _⟩ => rfl)
  rw [val_main_v7_apply, e7, val_main_v5_apply, val_main_v4_apply, val_main_v3_apply, val_main_c_0_apply,
    shrsi_unit .host .vector]

/-- The flattened codes of output row `o`. -/
theorem code_apply (o : Fin 11008) (k : Fin 4096) :
    val_main_v9 (F := Ideal) x1 (ix2 o k) = Cert.Awq.code (fun j => x1 (ix2 o j)) k := by
  unfold val_main_v9
  refine (Cert.Awq.Layout.flatten_pairs_apply _ _ o k).trans ?_
  unfold val_main_v8
  refine (Cert.Awq.Layout.interleave_apply _ _ _ o _ _).trans ?_
  unfold Cert.Awq.code
  by_cases hk : k.val % 2 = 0
  · rw [if_pos hk, if_pos hk]; exact lo_apply x1 o _ _
  · rw [if_neg hk, if_neg hk]; exact hi_apply x1 o _ _

/-- The dequantized weight of output row `o` at column `k`. -/
theorem weight_apply (o : Fin 11008) (k : Fin 4096) :
    val_main_v20 (F := Ideal) x1 x2 x3 x4 (ix2 o k)
      = Cert.Awq.weight (fun j => x1 (ix2 o j)) (fun g => x2 (ix2 o g)) (fun g => x3 (ix2 o g)) (fun k => x4 (ix1 k)) k := by
  have e19 : idx_main_v19 (ix2 o k) = ix2 (0 : Fin 1) k := funext fun a => Fin.ext (by match a with | ⟨0, _⟩ => rfl | ⟨1, _⟩ => rfl)
  have e18 : idx_main_v18 (ix2 (0 : Fin 1) k) = ix1 k := funext fun a => Fin.ext (by match a with | ⟨0, _⟩ => rfl)
  rw [val_main_v20_apply, val_main_v19_apply, e19, val_main_v18_apply, e18]
  have h17 : val_main_v17 (F := Ideal) x1 x2 x3 (ix2 o k)
      = val_main_v16 (F := Ideal) x1 x2 x3 (ix3 o ⟨k.val / 64, by have := k.isLt; omega⟩ ⟨k.val % 64, Nat.mod_lt _ (by decide)⟩) := by
    unfold val_main_v17
    exact Cert.Awq.Layout.flatten_groups_apply _ _ o k
  rw [h17, val_main_v16_apply, val_main_v13_apply, val_main_v15_apply, val_main_v12_apply]
  generalize hg : (⟨k.val / 64, by have := k.isLt; omega⟩ : Fin 64) = g
  generalize he : (⟨k.val % 64, Nat.mod_lt _ (by decide)⟩ : Fin 64) = e
  have e12 : idx_main_v12 (ix3 o g e) = ix3 o g (0 : Fin 1) := funext fun a => Fin.ext (by match a with | ⟨0, _⟩ => rfl | ⟨1, _⟩ => rfl | ⟨2, _⟩ => rfl)
  have e15 : idx_main_v15 (ix3 o g e) = ix3 o g (0 : Fin 1) := funext fun a => Fin.ext (by match a with | ⟨0, _⟩ => rfl | ⟨1, _⟩ => rfl | ⟨2, _⟩ => rfl)
  have e11 : idx_main_v11 (ix3 o g (0 : Fin 1)) = ix2 o g := funext fun a => Fin.ext (by match a with | ⟨0, _⟩ => rfl | ⟨1, _⟩ => rfl)
  have e14 : idx_main_v14 (ix3 o g (0 : Fin 1)) = ix2 o g := funext fun a => Fin.ext (by match a with | ⟨0, _⟩ => rfl | ⟨1, _⟩ => rfl)
  rw [e12, e15, val_main_v11_apply, val_main_v14_apply, e11, e14]
  have h10 : val_main_v10 (F := Ideal) x1 (ix3 o g e) = Cert.Awq.code (fun j => x1 (ix2 o j)) k := by
    unfold val_main_v10
    refine (Cert.Awq.Layout.split_groups_apply _ _ o g e).trans ?_
    have ek : (⟨g.val * 64 + e.val, by have := g.isLt; have := e.isLt; omega⟩ : Fin 4096) = k := by
      subst hg he; exact Fin.ext (by show k.val / 64 * 64 + k.val % 64 = k.val; omega)
    rw [ek]
    exact code_apply x1 o k
  rw [h10]
  subst hg
  rfl

/-- The reference's result is the specification's array. -/
theorem result_eq : val_main_v24 (F := Ideal) x0 x1 x2 x3 x4 x5 = Cert.Awq.G x0 x1 x2 x3 x4 x5 := by
  funext i
  obtain ⟨b, t, o, rfl⟩ : ∃ (b : Fin 4) (t : Fin 2048) (o : Fin 11008), i = ix3 b t o := ⟨i 0, i 1, i 2, eq_ix3 i⟩
  have e23 : idx_main_v23 (ix3 b t o) = ix3 (0 : Fin 1) (0 : Fin 1) o := funext fun a => Fin.ext (by match a with | ⟨0, _⟩ => rfl | ⟨1, _⟩ => rfl | ⟨2, _⟩ => rfl)
  have e22 : idx_main_v22 (ix3 (0 : Fin 1) (0 : Fin 1) o) = ix1 o := funext fun a => Fin.ext (by match a with | ⟨0, _⟩ => rfl)
  rw [val_main_v24_apply, val_main_v21_apply, val_main_v23_apply, e23, val_main_v22_apply, e22, Cert.Awq.G_apply]
  unfold Cert.Awq.outAt Cert.Awq.dotRow
  refine congrArg (· + x5 (ix1 o)) (Finset.sum_congr rfl fun k _ => ?_)
  have el : lidx_main_v21 (ix3 b t o) k = ix3 b t k := funext fun a => Fin.ext (by match a with | ⟨0, _⟩ => rfl | ⟨1, _⟩ => rfl | ⟨2, _⟩ => rfl)
  have er : ridx_main_v21 (ix3 b t o) k = ix2 o k := funext fun a => Fin.ext (by match a with | ⟨0, _⟩ => rfl | ⟨1, _⟩ => rfl)
  rw [el, er, weight_apply]

end Cert.ReferenceIdeal.RefValue

end
-- ==== Proof.lean ====
/-
  The certificate of an int4 group-dequantizing matrix product against its jnp reference, over the extended reals.

  Both programs compute, for batch b, position t and output feature o,

      out[b,t,o] = (Σ_k x[b,t,k] · w[o,k]) + bias[o],     w[o,k] = (s[o,k/64] · code[o,k] + z[o,k/64]) · cs[k],

  where code[o,k] is the low nibble of packed word wq[o,k/2] for an even column k and that word shifted right
  arithmetically by four for an odd one, converted to a float (Proof/Spec.lean). The reference does it on whole
  arrays with one contraction; the kernel does it in 32 × 43 blocks of 256 rows by 256 output features, each block
  dequantizing its 256 × 4096 slice of weights and multiplying on the matrix unit after a change of float format
  that is the identity on the extended reals. Every product and sum is taken in the same order on both sides, so
  the two results are the same term index by index and the finiteness of the inputs is never used.

  Proof/RefSpec.lean reads the reference's result as the specification; Proof/KernelPayload.lean reads one block of
  the kernel's body at an index; Proof/KernelValue.lean carries the blocks to the output array and through the
  program's reshapes; Proof/Layout.lean and Proof/Spec2.lean hold the index arithmetic they share. The three frames
  are the generated runs; no rewrite separates the kernel from its idealization.
-/
import proofs.«414333_j64965675319552_1_alg».proof.Defs
import proofs.«414333_j64965675319552_1_alg».proof.Proof.Gen.Kernel
import proofs.«414333_j64965675319552_1_alg».proof.Proof.Gen.Kernel.Frame
import proofs.«414333_j64965675319552_1_alg».proof.Proof.Gen.KernelIdeal
import proofs.«414333_j64965675319552_1_alg».proof.Proof.Gen.KernelIdeal.Frame
import proofs.«414333_j64965675319552_1_alg».proof.Proof.Gen.ReferenceIdeal
import proofs.«414333_j64965675319552_1_alg».proof.Proof.Gen.ReferenceIdeal.Run
import proofs.«414333_j64965675319552_1_alg».proof.Proof.Gen.ReferenceIdeal.Read
import proofs.«414333_j64965675319552_1_alg».proof.Proof.Gen.Pre_finite_inputs
import proofs.«414333_j64965675319552_1_alg».proof.Proof.KernelValue
import proofs.«414333_j64965675319552_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's array of the arguments they share. -/
theorem algebraic : Cert.algebraic_KernelIdeal_ReferenceIdeal := by
  intro m ρ m' ρ' _ hagree
  refine ⟨fun c => Cert.Awq.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
